-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel

variable [Facts]

def fn {F : FTy → Type} [FloatOps F] (main_arg0 : FVec F S8000000x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  main_v3
-- ==== Kernel.lean ====
abbrev S8000000x3 : Shape := ⟨2, ![8000000, 3]⟩
abbrev S8000000x10 : Shape := ⟨2, ![8000000, 10]⟩
abbrev S4000x3 : Shape := ⟨2, ![4000, 3]⟩
abbrev S4000x10 : Shape := ⟨2, ![4000, 10]⟩
abbrev S4000x1 : Shape := ⟨2, ![4000, 1]⟩

abbrev nBuf : Space → Nat
  | .hbm => 2
  | .vmem => 4
  | .smem => 0
  | _ => 0

abbrev bufTy : (tb : Table) → Fin (tcTables nBuf tb) → BufTy
  | .hbm, ⟨0, _⟩ => ⟨S8000000x3, .f32⟩
  | .hbm, ⟨1, _⟩ => ⟨S8000000x10, .f32⟩
  | .local _ .vmem, ⟨0, _⟩ => ⟨S4000x3, .f32⟩
  | .local _ .vmem, ⟨1, _⟩ => ⟨S4000x3, .f32⟩
  | .local _ .vmem, ⟨2, _⟩ => ⟨S4000x10, .f32⟩
  | .local _ .vmem, ⟨3, _⟩ => ⟨S4000x10, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4000x3_S4000x3_0_0 : ∀ a, (![0, 0] : Fin 2 → Nat) a + S4000x3.size a ≤ S4000x3.size a
  h_S4000x3 : 0 < S4000x3.numel
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  concatenates_S4000x1_S4000x1_S4000x1_S4000x1_S4000x1_S4000x1_S4000x1_S4000x1_S4000x1_S4000x1_S4000x10_d1 : Shape.Concatenates [S4000x1, S4000x1, S4000x1, S4000x1, S4000x1, S4000x1, S4000x1, S4000x1, S4000x1, S4000x1] S4000x10 1
  inb_S4000x10_S4000x10_0_0 : ∀ a, (![0, 0] : Fin 2 → Nat) a + S4000x10.size a ≤ S4000x10.size a
  h_S4000x10 : 0 < S4000x10.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S8000000x3.size a
  hwx0_0 : ∀ i : grid0.Coords, EltTy.bits .f32 = 32 ∨ (Rect.block (s := S8000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x10.size a ≤ S8000000x10.size a
  hwx0_1 : ∀ i : grid0.Coords, EltTy.bits .f32 = 32 ∨ (Rect.block (s := S8000000x10) S4000x10.size (cc0_transform_1 i) (hinb0_1 i)).WholeWords (EltTy.packing .f32)

variable [Facts₀]

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x10.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x1 : Shape := ⟨2, ![8000000, 1]⟩
abbrev S8000000 : Shape := ⟨1, ![8000000]⟩
abbrev S_ : Shape := ⟨0, ![]⟩
abbrev S8000000x10 : Shape := ⟨2, ![8000000, 10]⟩

abbrev nBuf : Space → Nat
  | .hbm => 26
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x1, .f32⟩
  | .hbm, ⟨2, _⟩ => ⟨S8000000, .f32⟩
  | .hbm, ⟨3, _⟩ => ⟨S8000000x1, .f32⟩
  | .hbm, ⟨4, _⟩ => ⟨S8000000, .f32⟩
  | .hbm, ⟨5, _⟩ => ⟨S8000000x1, .f32⟩
  | .hbm, ⟨6, _⟩ => ⟨S8000000, .f32⟩
  | .hbm, ⟨7, _⟩ => ⟨S_, .f32⟩
  | .hbm, ⟨8, _⟩ => ⟨S8000000, .f32⟩
  | .hbm, ⟨9, _⟩ => ⟨S8000000, .f32⟩
  | .hbm, ⟨10, _⟩ => ⟨S8000000, .f32⟩
  | .hbm, ⟨11, _⟩ => ⟨S8000000, .f32⟩
  | .hbm, ⟨12, _⟩ => ⟨S8000000, .f32⟩
  | .hbm, ⟨13, _⟩ => ⟨S8000000, .f32⟩
  | .hbm, ⟨14, _⟩ => ⟨S8000000, .f32⟩
  | .hbm, ⟨15, _⟩ => ⟨S8000000x1, .f32⟩
  | .hbm, ⟨16, _⟩ => ⟨S8000000x1, .f32⟩
  | .hbm, ⟨17, _⟩ => ⟨S8000000x1, .f32⟩
  | .hbm, ⟨18, _⟩ => ⟨S8000000x1, .f32⟩
  | .hbm, ⟨19, _⟩ => ⟨S8000000x1, .f32⟩
  | .hbm, ⟨20, _⟩ => ⟨S8000000x1, .f32⟩
  | .hbm, ⟨21, _⟩ => ⟨S8000000x1, .f32⟩
  | .hbm, ⟨22, _⟩ => ⟨S8000000x1, .f32⟩
  | .hbm, ⟨23, _⟩ => ⟨S8000000x1, .f32⟩
  | .hbm, ⟨24, _⟩ => ⟨S8000000x1, .f32⟩
  | .hbm, ⟨25, _⟩ => ⟨S8000000x10, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩

abbrev nD : Nat := 1
abbrev τ : Topo := Topo.v7x

variable {F : FTy → Type} [FloatOps F]

class Facts₀ : Prop where
  slices_S8000000x3_S8000000x1_0_0 : S8000000x3.Slices ![0, 0] S8000000x1
  shapeCasts_S8000000x1_S8000000 : S8000000x1.ShapeCasts S8000000
  slices_S8000000x3_S8000000x1_0_1 : S8000000x3.Slices ![0, 1] S8000000x1
  slices_S8000000x3_S8000000x1_0_2 : S8000000x3.Slices ![0, 2] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x1_S8000000x1_S8000000x1_S8000000x1_S8000000x1_S8000000x1_S8000000x1_S8000000x1_S8000000x10_d1 : Shape.Concatenates [S8000000x1, S8000000x1, S8000000x1, S8000000x1, S8000000x1, S8000000x1, S8000000x1, S8000000x1, S8000000x1, S8000000x1] S8000000x10 1

variable [Facts₀]

class Facts : Prop extends Facts₀ where

variable [Facts]
-- ==== Proof.Features.lean ====
/-
  Degree-two polynomial features of three columns.

  For an array `x` of `R` rows and three columns, `features x` has `R` rows and ten columns: row `r` lists the
  monomials of degree at most two in `(a, b, c) = (x r 0, x r 1, x r 2)`, in the order
  `1, a, b, c, a², a·b, a·c, b², b·c, c²`. Every entry of the result depends on ONE row of `x`, so the rows
  `[4000 t, 4000 t + 4000)` of `features x` are `features` of the same rows of `x`: that is all the tiling of the
  rows needs. No algebraic law is used anywhere: both programs form each product with its factors in this order.

  Also here, for any number of rows: a unit-column slice, a column flattened to a vector, a vector stood up as a
  column, and a concatenation of ten unit columns, each read at an index.
-/
import Idealize.ShloMosaic.PureOps.Ideal
import Idealize.ShloMosaic.Lib.ValueIdx
import Idealize.ShloMosaic.Lib.Pipeline.Value

noncomputable section

namespace Cert.PolyFeatures

open Idealize.ShloMosaic Idealize.ShloMosaic.ValueIdx

/-- The ten monomials of degree at most two in `a, b, c`, with `one` standing for the constant term. -/
def monomial (one a b c : Ideal .f32) : Fin 10 → Ideal .f32
  | ⟨0, _⟩ => one
  | ⟨1, _⟩ => a
  | ⟨2, _⟩ => b
  | ⟨3, _⟩ => c
  | ⟨4, _⟩ => a * a
  | ⟨5, _⟩ => a * b
  | ⟨6, _⟩ => a * c
  | ⟨7, _⟩ => b * b
  | ⟨8, _⟩ => b * c
  | ⟨9, _⟩ => c * c

/-- The float word of `1.0`, read as an extended real (never evaluated: both programs carry the same word). -/
abbrev one : Ideal .f32 := Ideal.ofBits .f32 0x3F800000#32

/-- Row `r` of the result is the monomials of row `r` of `x`. -/
def features {R : Nat} (x : (⟨2, ![R, 3]⟩ : Shape).Idx → Ideal .f32) : (⟨2, ![R, 10]⟩ : Shape).Idx → Ideal .f32 :=
  fun i => monomial one (x (ix2 (i 0) (0 : Fin 3))) (x (ix2 (i 0) (1 : Fin 3))) (x (ix2 (i 0) (2 : Fin 3))) (i 1)

theorem features_apply {R : Nat} (x : (⟨2, ![R, 3]⟩ : Shape).Idx → Ideal .f32) (r : Fin R) (q : Fin 10) :
    features x (ix2 r q) = monomial one (x (ix2 r 0)) (x (ix2 r 1)) (x (ix2 r 2)) q := rfl

variable {α : Type}

/-- Column `o` of a three-column array, cut out as a unit column, read at row `j 0`. -/
theorem slice_column {R : Nat} (o : Nat) (ho : o < 3) (x : (⟨2, ![R, 3]⟩ : Shape).Idx → α)
    (h : (⟨2, ![R, 3]⟩ : Shape).Slices ![0, o] ⟨2, ![R, 1]⟩) (j : (⟨2, ![R, 1]⟩ : Shape).Idx) :
    extractStridedSlice (⟨2, ![R, 1]⟩ : Shape) ![0, o] x h j = x (ix2 (j 0) (⟨o, ho⟩ : Fin 3)) :=
  extractStridedSlice_apply ![0, o] x h j (ix2 (j 0) (⟨o, ho⟩ : Fin 3)) (fun a => match a with
    | ⟨0, _⟩ => by show (j 0).val = 0 + (j 0).val; omega
    | ⟨1, _⟩ => by have h1 : (j 1).val < 1 := (j 1).isLt; show o = o + (j 1).val; omega)

/-- A unit column flattened to a vector, read at `r`: the column's entry in row `r`. -/
theorem flatten_column {R : Nat} (z : (⟨2, ![R, 1]⟩ : Shape).Idx → α)
    (h : (⟨2, ![R, 1]⟩ : Shape).ShapeCasts ⟨1, ![R]⟩) (i : (⟨1, ![R]⟩ : Shape).Idx) :
    shapeCast (⟨1, ![R]⟩ : Shape) z h i = z (ix2 (i 0) (0 : Fin 1)) :=
  shapeCast_apply z h i (ix2 (i 0) (0 : Fin 1))
    (by rewrite [Shape.rowMajor_val_two, Shape.rowMajor_val_one]; show (i 0).val * 1 + 0 = (i 0).val; omega)

/-- A vector stood up as a unit column, read at row `j 0`: the vector's entry there. -/
theorem stand_column {R : Nat} (y : (⟨1, ![R]⟩ : Shape).Idx → α)
    (h : (⟨1, ![R]⟩ : Shape).BroadcastsInDim ⟨2, ![R, 1]⟩ ![0]) (j : (⟨2, ![R, 1]⟩ : Shape).Idx) :
    broadcastInDim (⟨2, ![R, 1]⟩ : Shape) ![0] h y j = y (ix1 (j 0)) :=
  broadcastInDim_apply ![0] h y j (ix1 (j 0)) (fun a => match a with
    | ⟨0, _⟩ => by
      have hj : (j 0).val < R := (j 0).isLt
      show (j 0).val = if R = 1 then 0 else (j 0).val
      split <;> omega)

/-- Ten unit columns laid side by side, read at row `r` and column `q`: column `q`'s entry in row `r`. -/
theorem concat_columns {R : Nat} (p : Fin 10 → ((⟨2, ![R, 1]⟩ : Shape).Idx → α))
    (h : Shape.Concatenates ((List.ofFn fun n : Fin 10 => (⟨⟨2, ![R, 1]⟩, p n⟩ : (s : Shape) × (s.Idx → α))).map (·.1))
      ⟨2, ![R, 10]⟩ 1) (r : Fin R) (q : Fin 10) :
    concatenate (⟨2, ![R, 10]⟩ : Shape) 1 (List.ofFn fun n : Fin 10 => (⟨⟨2, ![R, 1]⟩, p n⟩ : (s : Shape) × (s.Idx → α))) h (ix2 r q)
      = p q (ix2 r (0 : Fin 1)) :=
  concatenate_ofFn_unit_apply (t := ⟨2, ![R, 10]⟩) (s₁ := ⟨2, ![R, 1]⟩) (1 : Fin 2) p h rfl rfl (ix2 r q) q rfl
    (ix2 r (0 : Fin 1)) (fun b hb => match b with
      | ⟨0, _⟩ => rfl
      | ⟨1, _⟩ => absurd rfl hb)

/-- Column `o` cut out as a unit column and flattened to a vector, read at `r`: the array's entry at row `r`, column `o`. -/
theorem flat_slice_column {R : Nat} (o : Nat) (ho : o < 3) (x : (⟨2, ![R, 3]⟩ : Shape).Idx → α)
    (hs : (⟨2, ![R, 3]⟩ : Shape).Slices ![0, o] ⟨2, ![R, 1]⟩) (hc : (⟨2, ![R, 1]⟩ : Shape).ShapeCasts ⟨1, ![R]⟩) (r : Fin R) :
    shapeCast (⟨1, ![R]⟩ : Shape) (extractStridedSlice (⟨2, ![R, 1]⟩ : Shape) ![0, o] x hs) hc (ix1 r) = x (ix2 r (⟨o, ho⟩ : Fin 3)) :=
  (flatten_column _ hc (ix1 r)).trans (slice_column o ho x hs (ix2 r (0 : Fin 1)))

/-- `features` at an index depends only on that index's column and on the three entries of its row: two arrays
    (of any numbers of rows) that agree on a row have the same features there. -/
theorem features_congr {R R' : Nat} (x : (⟨2, ![R, 3]⟩ : Shape).Idx → Ideal .f32) (x' : (⟨2, ![R', 3]⟩ : Shape).Idx → Ideal .f32)
    (i : (⟨2, ![R, 10]⟩ : Shape).Idx) (i' : (⟨2, ![R', 10]⟩ : Shape).Idx) (hq : (i 1).val = (i' 1).val)
    (hx : ∀ k : Fin 3, x (ix2 (i 0) k) = x' (ix2 (i' 0) k)) : features x i = features x' i' := by
  unfold features
  rw [hx 0, hx 1, hx 2]
  exact congrArg _ (Fin.ext hq)

end Cert.PolyFeatures

end
-- ==== Proof.KernelFeatures.lean ====
/-
  The kernel's result array is `features` of its argument.

  At grid point `t` the body loads rows `[4000 t, 4000 t + 4000)` of the argument (all three columns), lays the ten
  monomial columns of those rows side by side and stores them as rows `[4000 t, 4000 t + 4000)` of the result (all ten
  columns). Since an entry of `features` depends only on its own row, what point `t` writes back is block `t` of
  `features` of the whole argument; the 2000 blocks tile the 8 000 000 rows (row `r` lies in block `r / 4000`), so
  the result array ends holding `features` of the argument.
-/
import proofs.«172973_j46866683134251_1_alg».proof.Proof.Gen.KernelIdeal.Value
import proofs.«172973_j46866683134251_1_alg».proof.Proof.Features

noncomputable section

namespace Cert.KernelIdeal.BlockValue

open Cert.KernelIdeal Cert.KernelIdeal.Gen Idealize.ShloMosaic Idealize.ShloMosaic.TcCoe Idealize.SL.Sem
open Idealize.ShloMosaic.ValueIdx Cert.PolyFeatures
open Idealize.ShloMosaic.Pipeline (Dat)

/-! ## One block -/

/-- What the body leaves in its output block, entry by entry, is `features` of the block it loaded: the entry in row
    `r`, column `q` is taken from the `q`-th of the ten unit columns, at row `r`. -/
theorem block_eq (P0 : Vec Ideal S4000x3 .f32) (y : S4000x10.Idx) : Value.E1 (F := Ideal) P0 y = features P0 y := by
  obtain ⟨r, q, rfl⟩ : ∃ (r : Fin 4000) (q : Fin 10), y = ix2 r q := ⟨y 0, y 1, eq_ix2 y⟩
  rw [features_apply]
  match q with
  | ⟨0, _⟩ => rfl
  | ⟨1, _⟩ =>
    show extractStridedSlice S4000x1 ![0, 0] P0 _ (Value.ix1_0 (ix2 r _)) = P0 (ix2 r 0)
    exact slice_column 0 (by decide) P0 _ _
  | ⟨2, _⟩ =>
    show extractStridedSlice S4000x1 ![0, 1] P0 _ (Value.ix1_0 (ix2 r _)) = P0 (ix2 r 1)
    exact slice_column 1 (by decide) P0 _ _
  | ⟨3, _⟩ =>
    show extractStridedSlice S4000x1 ![0, 2] P0 _ (Value.ix1_0 (ix2 r _)) = P0 (ix2 r 2)
    exact slice_column 2 (by decide) P0 _ _
  | ⟨4, _⟩ =>
    show extractStridedSlice S4000x1 ![0, 0] P0 _ (Value.ix1_0 (ix2 r _)) * extractStridedSlice S4000x1 ![0, 0] P0 _ (Value.ix1_0 (ix2 r _)) = P0 (ix2 r 0) * P0 (ix2 r 0)
    rw [slice_column 0 (by decide) P0 _ _]
    rfl
  | ⟨5, _⟩ =>
    show extractStridedSlice S4000x1 ![0, 0] P0 _ (Value.ix1_0 (ix2 r _)) * extractStridedSlice S4000x1 ![0, 1] P0 _ (Value.ix1_0 (ix2 r _)) = P0 (ix2 r 0) * P0 (ix2 r 1)
    rw [slice_column 0 (by decide) P0 _ _, slice_column 1 (by decide) P0 _ _]
    rfl
  | ⟨6, _⟩ =>
    show extractStridedSlice S4000x1 ![0, 0] P0 _ (Value.ix1_0 (ix2 r _)) * extractStridedSlice S4000x1 ![0, 2] P0 _ (Value.ix1_0 (ix2 r _)) = P0 (ix2 r 0) * P0 (ix2 r 2)
    rw [slice_column 0 (by decide) P0 _ _, slice_column 2 (by decide) P0 _ _]
    rfl
  | ⟨7, _⟩ =>
    show extractStridedSlice S4000x1 ![0, 1] P0 _ (Value.ix1_0 (ix2 r _)) * extractStridedSlice S4000x1 ![0, 1] P0 _ (Value.ix1_0 (ix2 r _)) = P0 (ix2 r 1) * P0 (ix2 r 1)
    rw [slice_column 1 (by decide) P0 _ _]
    rfl
  | ⟨8, _⟩ =>
    show extractStridedSlice S4000x1 ![0, 1] P0 _ (Value.ix1_0 (ix2 r _)) * extractStridedSlice S4000x1 ![0, 2] P0 _ (Value.ix1_0 (ix2 r _)) = P0 (ix2 r 1) * P0 (ix2 r 2)
    rw [slice_column 1 (by decide) P0 _ _, slice_column 2 (by decide) P0 _ _]
    rfl
  | ⟨9, _⟩ =>
    show extractStridedSlice S4000x1 ![0, 2] P0 _ (Value.ix1_0 (ix2 r _)) * extractStridedSlice S4000x1 ![0, 2] P0 _ (Value.ix1_0 (ix2 r _)) = P0 (ix2 r 2) * P0 (ix2 r 2)
    rw [slice_column 2 (by decide) P0 _ _]
    rfl

theorem zero_offsets : (![0, 0] : Fin 2 → Nat) = fun _ => 0 := funext fun a => by fin_cases a <;> rfl

/-- The body's one store covers its whole output block, and its load reads its whole input block: the block it leaves
    is `features` of the block it found. -/
theorem body_eq (P0 : Vec Ideal S4000x3 .f32) : out0_1 (F := Ideal) P0 = features P0 := by
  funext y
  unfold out0_1
  rw [View.ld_unit_zero (S := S4000x3) zero_offsets]
  exact (Value.canon1_eq (F := Ideal) P0 y).trans (block_eq P0 y)

/-! ## From the blocks to the array -/

variable (m : (ℓ : Loc nD τ sig) → Buf (Elt Ideal) ℓ) (ρ : Dev nD → PrngReg)

/-- The printed index maps over the grid: at point `t` both windows sit at block `t` along the rows and at block 0
    along the columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point `t` writes back is block `t` of `features` of the whole argument array: the loaded block is rows
    `[4000 t, 4000 t + 4000)` of the argument, and `features` reads only an entry's own row. -/
theorem flushed_eq (c : Dev nD) (t : Fin cfg0.N) :
    (dats m 0 c).flushed 1 t = ((cfg0.win 1).blk t).view.read (Elt Ideal) (features (V m c main_arg0)) := by
  rw [Value.flushed1]
  obtain ⟨e0, e1, e2, e3⟩ := block_index t
  funext j
  show out0_1 (F := Ideal) (iblk m c 0 t) j = features (V m c main_arg0) (((cfg0.win 1).blk t).view.emb j)
  refine (congrFun (body_eq (iblk m c 0 t)) j).trans ?_
  refine features_congr (iblk m c 0 t) (V m c main_arg0) j (((cfg0.win 1).blk t).view.emb j) ?_ ?_
  · show (j 1).val = win0_1.index t (1 : Fin 2) * 10 + 1 * (j 1).val
    omega
  · intro k
    show V m c main_arg0 (((cfg0.win 0).blk t).view.emb (ix2 (j 0) k)) = V m c main_arg0 (ix2 ((((cfg0.win 1).blk t).view.emb j) 0) k)
    refine congrArg (V m c main_arg0) (funext fun a => Fin.ext ?_)
    match a with
    | ⟨0, _⟩ =>
      show win0_0.index t (0 : Fin 2) * 4000 + 1 * (j 0).val = win0_1.index t (0 : Fin 2) * 4000 + 1 * (j 0).val
      omega
    | ⟨1, _⟩ =>
      show win0_0.index t (1 : Fin 2) * 3 + 1 * k.val = k.val
      omega

/-- An index of the result array lies in point `t`'s block iff each coordinate lies in the block's range. -/
theorem mem_block (t : Fin cfg0.N) (i : S8000000x10.Idx) :
    i ∈ ((cfg0.win 1).blk t).view.set ↔ ∀ a : Fin 2, win0_1.index t a * S4000x10.size a ≤ (i a).val ∧ (i a).val < win0_1.index t a * S4000x10.size a + S4000x10.size a := by
  show i ∈ ((View.whole main_v0).slice (win0_1.rect t)).set ↔ _
  rw [View.set_slice_whole, Rect.mem_set_unit]
  exact Iff.rfl

/-- Every index of the result array lies in some point's block: row `r` in block `r / 4000`. -/
theorem covered (i : S8000000x10.Idx) : ∃ t : Fin cfg0.N, (cfg0.win 1).flush t = true ∧ i ∈ ((cfg0.win 1).blk t).view.set := by
  have hi0 : (i 0).val < 8000000 := (i 0).isLt
  have hi1 : (i 1).val < 10 := (i 1).isLt
  have hN : cfg0.N = 2000 := N_0
  let t : Fin cfg0.N := ⟨(i 0).val / 4000, by rw [hN]; omega⟩
  obtain ⟨-, -, e2, e3⟩ := block_index t
  have e2' : win0_1.index t (0 : Fin 2) = (i 0).val / 4000 := e2
  refine ⟨t, flush0_1 t, ?_⟩
  rw [mem_block]
  intro a
  match a with
  | ⟨0, _⟩ =>
    show win0_1.index t (0 : Fin 2) * 4000 ≤ (i 0).val ∧ (i 0).val < win0_1.index t (0 : Fin 2) * 4000 + 4000
    omega
  | ⟨1, _⟩ =>
    show win0_1.index t (1 : Fin 2) * 10 ≤ (i 1).val ∧ (i 1).val < win0_1.index t (1 : Fin 2) * 10 + 10
    omega

/-- The result array after the run is `features` of the argument array. -/
theorem final (c : Dev nD) : (dats m 0 c).arrAt 1 cfg0.N = features (m ((c : Thread nD τ).loc main_arg0)) :=
  (dats m 0 c).arrAt_eq_of_cover 1 (features (V m c main_arg0)) (fun t _ => flushed_eq m c t) covered

/-- The kernel's run: it terminates with the result array at `features` of the argument, the argument unchanged. -/
theorem run : θ_run defs (onTc (τ := τ) (main (F := Ideal))) ⟨m, fun _ => 0, ρ⟩ fun r => ∀ c : Dev nD,
      r.2.mem ((c : Thread nD τ).loc main_v0) = features (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.BlockValue

end
-- ==== Proof.ReferenceFeatures.lean ====
/-
  The reference's result is `features` of its argument.

  The reference cuts the three columns out of the argument, flattens each to a vector, multiplies the vectors in
  pairs, stands every vector (the constant one, the three columns, the six products) back up as a unit column and lays
  the ten columns side by side. Read at row `r` and column `q`, that is column `q`'s entry in row `r`: the
  `q`-th monomial of row `r` of the argument.
-/
import proofs.«172973_j46866683134251_1_alg».proof.Proof.Gen.ReferenceIdeal.Read
import proofs.«172973_j46866683134251_1_alg».proof.Proof.Features

noncomputable section

namespace Cert.ReferenceIdeal.RefValue

open Cert.ReferenceIdeal Cert.ReferenceIdeal.Read Idealize.ShloMosaic Idealize.ShloMosaic.ValueIdx Cert.PolyFeatures

/-- The flattened columns of the argument, read at a row. -/
theorem col0_at (x0 : S8000000x3.Idx → Ideal .f32) (r : Fin 8000000) : val_main_v1 (F := Ideal) x0 (ix1 r) = x0 (ix2 r 0) := by
  unfold val_main_v1 val_main_v0
  exact flat_slice_column 0 (by decide) x0 _ _ r
theorem col1_at (x0 : S8000000x3.Idx → Ideal .f32) (r : Fin 8000000) : val_main_v3 (F := Ideal) x0 (ix1 r) = x0 (ix2 r 1) := by
  unfold val_main_v3 val_main_v2
  exact flat_slice_column 1 (by decide) x0 _ _ r
theorem col2_at (x0 : S8000000x3.Idx → Ideal .f32) (r : Fin 8000000) : val_main_v5 (F := Ideal) x0 (ix1 r) = x0 (ix2 r 2) := by
  unfold val_main_v5 val_main_v4
  exact flat_slice_column 2 (by decide) x0 _ _ r

/-- The ten columns the reference lays side by side. -/
def columns (x0 : S8000000x3.Idx → Ideal .f32) : Fin 10 → (S8000000x1.Idx → Ideal .f32)
  | ⟨0, _⟩ => val_main_v13 (F := Ideal)
  | ⟨1, _⟩ => val_main_v14 (F := Ideal) x0
  | ⟨2, _⟩ => val_main_v15 (F := Ideal) x0
  | ⟨3, _⟩ => val_main_v16 (F := Ideal) x0
  | ⟨4, _⟩ => val_main_v17 (F := Ideal) x0
  | ⟨5, _⟩ => val_main_v18 (F := Ideal) x0
  | ⟨6, _⟩ => val_main_v19 (F := Ideal) x0
  | ⟨7, _⟩ => val_main_v20 (F := Ideal) x0
  | ⟨8, _⟩ => val_main_v21 (F := Ideal) x0
  | ⟨9, _⟩ => val_main_v22 (F := Ideal) x0

/-- Column `q` of the ten, read at row `r`, is the `q`-th monomial of row `r` of the argument. -/
theorem columns_at (x0 : S8000000x3.Idx → Ideal .f32) (r : Fin 8000000) (q : Fin 10) :
    columns x0 q (ix2 r (0 : Fin 1)) = monomial one (x0 (ix2 r 0)) (x0 (ix2 r 1)) (x0 (ix2 r 2)) q := by
  match q with
  | ⟨0, _⟩ =>
    show val_main_v13 (F := Ideal) (ix2 r (0 : Fin 1)) = one
    rw [val_main_v13_apply, val_main_v6_apply, val_main_cst_apply]; rfl
  | ⟨1, _⟩ =>
    show val_main_v14 (F := Ideal) x0 (ix2 r (0 : Fin 1)) = x0 (ix2 r 0)
    unfold val_main_v14
    exact (stand_column (val_main_v1 (F := Ideal) x0) _ _).trans (col0_at x0 r)
  | ⟨2, _⟩ =>
    show val_main_v15 (F := Ideal) x0 (ix2 r (0 : Fin 1)) = x0 (ix2 r 1)
    unfold val_main_v15
    exact (stand_column (val_main_v3 (F := Ideal) x0) _ _).trans (col1_at x0 r)
  | ⟨3, _⟩ =>
    show val_main_v16 (F := Ideal) x0 (ix2 r (0 : Fin 1)) = x0 (ix2 r 2)
    unfold val_main_v16
    exact (stand_column (val_main_v5 (F := Ideal) x0) _ _).trans (col2_at x0 r)
  | ⟨4, _⟩ =>
    show val_main_v17 (F := Ideal) x0 (ix2 r (0 : Fin 1)) = x0 (ix2 r 0) * x0 (ix2 r 0)
    unfold val_main_v17
    refine (stand_column (val_main_v7 (F := Ideal) x0) _ _).trans ?_
    show val_main_v1 (F := Ideal) x0 (ix1 r) * val_main_v1 (F := Ideal) x0 (ix1 r) = _
    rw [col0_at]
  | ⟨5, _⟩ =>
    show val_main_v18 (F := Ideal) x0 (ix2 r (0 : Fin 1)) = x0 (ix2 r 0) * x0 (ix2 r 1)
    unfold val_main_v18
    refine (stand_column (val_main_v8 (F := Ideal) x0) _ _).trans ?_
    show val_main_v1 (F := Ideal) x0 (ix1 r) * val_main_v3 (F := Ideal) x0 (ix1 r) = _
    rw [col0_at, col1_at]
  | ⟨6, _⟩ =>
    show val_main_v19 (F := Ideal) x0 (ix2 r (0 : Fin 1)) = x0 (ix2 r 0) * x0 (ix2 r 2)
    unfold val_main_v19
    refine (stand_column (val_main_v9 (F := Ideal) x0) _ _).trans ?_
    show val_main_v1 (F := Ideal) x0 (ix1 r) * val_main_v5 (F := Ideal) x0 (ix1 r) = _
    rw [col0_at, col2_at]
  | ⟨7, _⟩ =>
    show val_main_v20 (F := Ideal) x0 (ix2 r (0 : Fin 1)) = x0 (ix2 r 1) * x0 (ix2 r 1)
    unfold val_main_v20
    refine (stand_column (val_main_v10 (F := Ideal) x0) _ _).trans ?_
    show val_main_v3 (F := Ideal) x0 (ix1 r) * val_main_v3 (F := Ideal) x0 (ix1 r) = _
    rw [col1_at]
  | ⟨8, _⟩ =>
    show val_main_v21 (F := Ideal) x0 (ix2 r (0 : Fin 1)) = x0 (ix2 r 1) * x0 (ix2 r 2)
    unfold val_main_v21
    refine (stand_column (val_main_v11 (F := Ideal) x0) _ _).trans ?_
    show val_main_v3 (F := Ideal) x0 (ix1 r) * val_main_v5 (F := Ideal) x0 (ix1 r) = _
    rw [col1_at, col2_at]
  | ⟨9, _⟩ =>
    show val_main_v22 (F := Ideal) x0 (ix2 r (0 : Fin 1)) = x0 (ix2 r 2) * x0 (ix2 r 2)
    unfold val_main_v22
    refine (stand_column (val_main_v12 (F := Ideal) x0) _ _).trans ?_
    show val_main_v5 (F := Ideal) x0 (ix1 r) * val_main_v5 (F := Ideal) x0 (ix1 r) = _
    rw [col2_at]

/-- The reference's result, as a whole array, is `features` of its argument. -/
theorem result_eq (x0 : S8000000x3.Idx → Ideal .f32) : val_main_v23 (F := Ideal) x0 = features x0 := by
  funext i
  obtain ⟨r, q, rfl⟩ : ∃ (r : Fin 8000000) (q : Fin 10), i = ix2 r q := ⟨i 0, i 1, eq_ix2 i⟩
  rw [features_apply]
  unfold val_main_v23
  exact (concat_columns (columns x0) _ r q).trans (columns_at x0 r q)

end Cert.ReferenceIdeal.RefValue

end
-- ==== Proof.lean ====
/-
  The kernel and the reference both compute the degree-two polynomial features of an array of 8 000 000 rows and
  three columns: row `r` of the result is `1, a, b, c, a², a·b, a·c, b², b·c, c²` for `(a, b, c)` row `r` of the
  argument (Proof/Features.lean). The kernel does it 4000 rows at a time, slicing the three columns out of the loaded
  block and laying ten unit columns side by side (Proof/KernelFeatures.lean); the reference slices the columns of the
  whole array, multiplies them as vectors and lays the ten columns side by side (Proof/ReferenceFeatures.lean). Over the
  extended reals the two results are the same function of the argument, entry by entry, with no algebraic law needed:
  each product has the same two factors in the same order on both sides, and the constant term is the same float
  word. So finiteness of the input is never used. The idealized kernel is the kernel's own text read over the extended
  reals: nothing in it had to be rewritten, and the fourth conjunct is trivial.
-/
import proofs.«172973_j46866683134251_1_alg».proof.Defs
import proofs.«172973_j46866683134251_1_alg».proof.Proof.Gen.Kernel
import proofs.«172973_j46866683134251_1_alg».proof.Proof.Gen.Kernel.Skeleton
import proofs.«172973_j46866683134251_1_alg».proof.Proof.Gen.Kernel.Launch
import proofs.«172973_j46866683134251_1_alg».proof.Proof.Gen.Kernel.Points
import proofs.«172973_j46866683134251_1_alg».proof.Proof.Gen.Kernel.Frame
import proofs.«172973_j46866683134251_1_alg».proof.Proof.Gen.KernelIdeal
import proofs.«172973_j46866683134251_1_alg».proof.Proof.Gen.KernelIdeal.Skeleton
import proofs.«172973_j46866683134251_1_alg».proof.Proof.Gen.KernelIdeal.Launch
import proofs.«172973_j46866683134251_1_alg».proof.Proof.Gen.KernelIdeal.Points
import proofs.«172973_j46866683134251_1_alg».proof.Proof.Gen.KernelIdeal.Frame
import proofs.«172973_j46866683134251_1_alg».proof.Proof.Gen.ReferenceIdeal
import proofs.«172973_j46866683134251_1_alg».proof.Proof.Gen.Pre_finite_inputs
import proofs.«172973_j46866683134251_1_alg».proof.Proof.Gen.KernelIdeal.Value
import proofs.«172973_j46866683134251_1_alg».proof.Proof.Gen.ReferenceIdeal.Run
import proofs.«172973_j46866683134251_1_alg».proof.Proof.Gen.ReferenceIdeal.Read
import proofs.«172973_j46866683134251_1_alg».proof.Proof.Features
import proofs.«172973_j46866683134251_1_alg».proof.Proof.KernelFeatures
import proofs.«172973_j46866683134251_1_alg».proof.Proof.ReferenceFeatures
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the argument, end with the result array at `features` of it. -/
theorem algebraic : Cert.algebraic_KernelIdeal_ReferenceIdeal := by
  intro m ρ m' ρ' _ hagree
  refine ⟨fun c => Cert.PolyFeatures.features (m ((c : Thread Cert.KernelIdeal.nD Cert.KernelIdeal.τ).loc Cert.KernelIdeal.main_arg0)),
    Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
